-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000x3 : Shape := ⟨2, ![1000000, 3]⟩
abbrev S3x64 : Shape := ⟨2, ![3, 64]⟩
abbrev S64x64 : Shape := ⟨2, ![64, 64]⟩
abbrev S1x64 : Shape := ⟨2, ![1, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1000000x3 : S_.BroadcastsInDim S1000000x3 (![] : Fin 0 → Fin S1000000x3.rank)
  reducesTo_S1000000x3_S_d0_1 : S1000000x3.ReducesTo [0, 1] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1x64 .f32) (main_arg12 : FVec F S1x64 .f32) (main_arg13 : FVec F S1x64 .f32) (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  let main_v54 : FVec F S1x64 .f32 := Host.absf main_arg11
  let main_cst_20 : FVec F S_ .f32 := constant S_ .f32 0x7F800000#32
  let main_v55 : FVec F S1x64 .f32 := broadcastInDim S1x64 ![] bcast_S_S1x64 main_cst_20
  let main_v56 : IVec S1x64 1 := cmpf .olt main_v54 main_v55
  let main_c_21 : IVec S_ 1 := constantI S_ 1 1#1
  let main_v57 : IVec S_ 1 := (fun x v => Host.reduce IntOp.andi x v reducesTo_S1x64_S_d0_1 h_S_) main_v56 main_c_21
  let main_v58 : IVec S_ 1 := andi main_v53 main_v57
  let main_v59 : FVec F S1x64 .f32 := Host.absf main_arg12
  let main_cst_22 : FVec F S_ .f32 := constant S_ .f32 0x7F800000#32
  let main_v60 : FVec F S1x64 .f32 := broadcastInDim S1x64 ![] bcast_S_S1x64 main_cst_22
  let main_v61 : IVec S1x64 1 := cmpf .olt main_v59 main_v60
  let main_c_23 : IVec S_ 1 := constantI S_ 1 1#1
  let main_v62 : IVec S_ 1 := (fun x v => Host.reduce IntOp.andi x v reducesTo_S1x64_S_d0_1 h_S_) main_v61 main_c_23
  let main_v63 : IVec S_ 1 := andi main_v58 main_v62
  let main_v64 : FVec F S1x64 .f32 := Host.absf main_arg13
  let main_cst_24 : FVec F S_ .f32 := constant S_ .f32 0x7F800000#32
  let main_v65 : FVec F S1x64 .f32 := broadcastInDim S1x64 ![] bcast_S_S1x64 main_cst_24
  let main_v66 : IVec S1x64 1 := cmpf .olt main_v64 main_v65
  let main_c_25 : IVec S_ 1 := constantI S_ 1 1#1
  let main_v67 : IVec S_ 1 := (fun x v => Host.reduce IntOp.andi x v reducesTo_S1x64_S_d0_1 h_S_) main_v66 main_c_25
  fn_part4 (F := F) main_v63 main_v67

def fn_part2 {F : FTy → Type} [FloatOps F] (main_arg7 : FVec F S64x64 .f32) (main_arg8 : FVec F S64x64 .f32) (main_arg9 : FVec F S64x64 .f32) (main_arg10 : FVec F S1x64 .f32) (main_arg11 : FVec F S1x64 .f32) (main_arg12 : FVec F S1x64 .f32) (main_arg13 : FVec F S1x64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S1x64 .f32 := Host.absf main_arg10
  let main_cst_18 : FVec F S_ .f32 := constant S_ .f32 0x7F800000#32
  let main_v50 : FVec F S1x64 .f32 := broadcastInDim S1x64 ![] bcast_S_S1x64 main_cst_18
  fn_part3 (F := F) main_arg11 main_arg12 main_arg13 main_v48 main_v49 main_v50

def fn_part1 {F : FTy → Type} [FloatOps F] (main_arg4 : FVec F S3x64 .f32) (main_arg5 : FVec F S3x64 .f32) (main_arg6 : FVec F S64x64 .f32) (main_arg7 : FVec F S64x64 .f32) (main_arg8 : FVec F S64x64 .f32) (main_arg9 : FVec F S64x64 .f32) (main_arg10 : FVec F S1x64 .f32) (main_arg11 : FVec F S1x64 .f32) (main_arg12 : FVec F S1x64 .f32) (main_arg13 : FVec F S1x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg4
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg5
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1000000x64 .f32) (main_arg1 : FVec F S1000000x3 .f32) (main_arg2 : FVec F S3x64 .f32) (main_arg3 : FVec F S3x64 .f32) (main_arg4 : FVec F S3x64 .f32) (main_arg5 : FVec F S3x64 .f32) (main_arg6 : FVec F S64x64 .f32) (main_arg7 : FVec F S64x64 .f32) (main_arg8 : FVec F S64x64 .f32) (main_arg9 : FVec F S64x64 .f32) (main_arg10 : FVec F S1x64 .f32) (main_arg11 : FVec F S1x64 .f32) (main_arg12 : FVec F S1x64 .f32) (main_arg13 : FVec F S1x64 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x3 .f32 := Host.absf main_arg1
  let main_cst_0 : FVec F S_ .f32 := constant S_ .f32 0x7F800000#32
  let main_v5 : FVec F S1000000x3 .f32 := broadcastInDim S1000000x3 ![] bcast_S_S1000000x3 main_cst_0
  let main_v6 : IVec S1000000x3 1 := cmpf .olt main_v4 main_v5
  let main_c_1 : IVec S_ 1 := constantI S_ 1 1#1
  let main_v7 : IVec S_ 1 := (fun x v => Host.reduce IntOp.andi x v reducesTo_S1000000x3_S_d0_1 h_S_) main_v6 main_c_1
  let main_v8 : IVec S_ 1 := andi main_v3 main_v7
  let main_v9 : FVec F S3x64 .f32 := Host.absf main_arg2
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64 .f32 := Host.absf main_arg3
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg4 main_arg5 main_arg6 main_arg7 main_arg8 main_arg9 main_arg10 main_arg11 main_arg12 main_arg13 main_v13 main_v16
-- ==== Kernel.lean ====
abbrev S1000000x64 : Shape := ⟨2, ![1000000, 64]⟩
abbrev S1000000x3 : Shape := ⟨2, ![1000000, 3]⟩
abbrev S3x64 : Shape := ⟨2, ![3, 64]⟩
abbrev S64x64 : Shape := ⟨2, ![64, 64]⟩
abbrev S1x64 : Shape := ⟨2, ![1, 64]⟩
abbrev S5000x3 : Shape := ⟨2, ![5000, 3]⟩
abbrev S5000x64 : Shape := ⟨2, ![5000, 64]⟩

abbrev nBuf : Space → Nat
  | .hbm => 23
  | .vmem => 18
  | .smem => 0
  | _ => 0

abbrev bufTy : (tb : Table) → Fin (tcTables nBuf tb) → BufTy
  | .hbm, ⟨0, _⟩ => ⟨S1000000x64, .f32⟩
  | .hbm, ⟨1, _⟩ => ⟨S1000000x3, .f32⟩
  | .hbm, ⟨2, _⟩ => ⟨S3x64, .f32⟩
  | .hbm, ⟨3, _⟩ => ⟨S3x64, .f32⟩
  | .hbm, ⟨4, _⟩ => ⟨S3x64, .f32⟩
  | .hbm, ⟨5, _⟩ => ⟨S3x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S3x64, .bf16⟩
  | .hbm, ⟨15, _⟩ => ⟨S3x64, .bf16⟩
  | .hbm, ⟨16, _⟩ => ⟨S3x64, .bf16⟩
  | .hbm, ⟨17, _⟩ => ⟨S3x64, .bf16⟩
  | .hbm, ⟨18, _⟩ => ⟨S64x64, .bf16⟩
  | .hbm, ⟨19, _⟩ => ⟨S64x64, .bf16⟩
  | .hbm, ⟨20, _⟩ => ⟨S64x64, .bf16⟩
  | .hbm, ⟨21, _⟩ => ⟨S64x64, .bf16⟩
  | .hbm, ⟨22, _⟩ => ⟨S1000000x64, .f32⟩
  | .local _ .vmem, ⟨0, _⟩ => ⟨S5000x3, .f32⟩
  | .local _ .vmem, ⟨1, _⟩ => ⟨S5000x3, .f32⟩
  | .local _ .vmem, ⟨2, _⟩ => ⟨S5000x64, .f32⟩
  | .local _ .vmem, ⟨3, _⟩ => ⟨S5000x64, .f32⟩
  | .local _ .vmem, ⟨4, _⟩ => ⟨S3x64, .bf16⟩
  | .local _ .vmem, ⟨5, _⟩ => ⟨S3x64, .bf16⟩
  | .local _ .vmem, ⟨6, _⟩ => ⟨S3x64, .bf16⟩
  | .local _ .vmem, ⟨7, _⟩ => ⟨S3x64, .bf16⟩
  | .local _ .vmem, ⟨8, _⟩ => ⟨S64x64, .bf16⟩
  | .local _ .vmem, ⟨9, _⟩ => ⟨S64x64, .bf16⟩
  | .local _ .vmem, ⟨10, _⟩ => ⟨S64x64, .bf16⟩
  | .local _ .vmem, ⟨11, _⟩ => ⟨S64x64, .bf16⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S5000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  inb_S5000x3_S5000x3_0_0 : ∀ a, (![0, 0] : Fin 2 → Nat) a + S5000x3.size a ≤ S5000x3.size a
  h_S5000x3 : 0 < S5000x3.numel
  inb_S5000x64_S5000x64_0_0 : ∀ a, (![0, 0] : Fin 2 → Nat) a + S5000x64.size a ≤ S5000x64.size a
  h_S5000x64 : 0 < S5000x64.numel
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  broadcasts_S1x64_S5000x64 : S1x64.Broadcasts S5000x64
  dot_S5000x3_S3x64_S5000x64_1_0_0_1_n_n_wf : DotDims.WF S5000x3 S3x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S1000000x3.size a
  hwx0_0 : ∀ i : grid0.Coords, EltTy.bits .f32 = 32 ∨ (Rect.block (s := S1000000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S1000000x64.size a
  hwx0_1 : ∀ i : grid0.Coords, EltTy.bits .f32 = 32 ∨ (Rect.block (s := S1000000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .bf16 = 32 ∨ (Rect.block (s := S3x64) S3x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .bf16 = 32 ∨ (Rect.block (s := S3x64) S3x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64.size a ≤ S3x64.size a
  hwx0_4 : ∀ i : grid0.Coords, EltTy.bits .bf16 = 32 ∨ (Rect.block (s := S3x64) S3x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x64.size a ≤ S3x64.size a
  hwx0_5 : ∀ i : grid0.Coords, EltTy.bits .bf16 = 32 ∨ (Rect.block (s := S3x64) S3x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .bf16 = 32 ∨ (Rect.block (s := S64x64) S64x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .bf16 = 32 ∨ (Rect.block (s := S64x64) S64x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S5000x64.size a ≤ S1000000x64.size a
  hwx0_14 : ∀ i : grid0.Coords, EltTy.bits .f32 = 32 ∨ (Rect.block (s := S1000000x64) S5000x64.size (cc0_transform_14 i) (hinb0_14 i)).WholeWords (EltTy.packing .f32)

variable [Facts₀]

def dot_S5000x3_S3x64_S5000x64_1_0_0_1_n_n : DotDims S5000x3 S3x64 S5000x64 where
  lhsContracting := [1]
  rhsContracting := [0]
  lhsNonContracting := [0]
  rhsNonContracting := [1]
  lhsBatch := []
  rhsBatch := []
  wf := dot_S5000x3_S3x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg1) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S3x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S3x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v8) S5000x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S1000000x3 : Shape := ⟨2, ![1000000, 3]⟩
abbrev S3x64 : Shape := ⟨2, ![3, 64]⟩
abbrev S64x64 : Shape := ⟨2, ![64, 64]⟩
abbrev S1x64 : Shape := ⟨2, ![1, 64]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000x3, .f32⟩
  | .hbm, ⟨2, _⟩ => ⟨S3x64, .f32⟩
  | .hbm, ⟨3, _⟩ => ⟨S3x64, .f32⟩
  | .hbm, ⟨4, _⟩ => ⟨S3x64, .f32⟩
  | .hbm, ⟨5, _⟩ => ⟨S3x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S1000000x64, .f32⟩
  | .hbm, ⟨15, _⟩ => ⟨S1000000x64, .f32⟩
  | .hbm, ⟨16, _⟩ => ⟨S1000000x64, .f32⟩
  | .hbm, ⟨17, _⟩ => ⟨S1000000x64, .f32⟩
  | .hbm, ⟨18, _⟩ => ⟨S1000000x64, .f32⟩
  | .hbm, ⟨19, _⟩ => ⟨S1000000x64, .f32⟩
  | .hbm, ⟨20, _⟩ => ⟨S1000000x64, .f32⟩
  | .hbm, ⟨21, _⟩ => ⟨S1000000x64, .f32⟩
  | .hbm, ⟨22, _⟩ => ⟨S1000000x64, .f32⟩
  | .hbm, ⟨23, _⟩ => ⟨S1000000x64, .f32⟩
  | .hbm, ⟨24, _⟩ => ⟨S1000000x64, .f32⟩
  | .hbm, ⟨25, _⟩ => ⟨S1000000x64, .f32⟩
  | .hbm, ⟨26, _⟩ => ⟨S1000000x64, .f32⟩
  | .hbm, ⟨27, _⟩ => ⟨S1000000x64, .f32⟩
  | .hbm, ⟨28, _⟩ => ⟨S1000000x64, .f32⟩
  | .hbm, ⟨29, _⟩ => ⟨S1000000x64, .f32⟩
  | .hbm, ⟨30, _⟩ => ⟨S1000000x64, .f32⟩
  | .hbm, ⟨31, _⟩ => ⟨S1000000x64, .f32⟩
  | .hbm, ⟨32, _⟩ => ⟨S1000000x64, .f32⟩
  | .hbm, ⟨33, _⟩ => ⟨S1000000x64, .f32⟩
  | .hbm, ⟨34, _⟩ => ⟨S1000000x64, .f32⟩
  | .hbm, ⟨35, _⟩ => ⟨S1000000x64, .f32⟩
  | .hbm, ⟨36, _⟩ => ⟨S1000000x64, .f32⟩
  | .hbm, ⟨37, _⟩ => ⟨S1000000x64, .f32⟩
  | .hbm, ⟨38, _⟩ => ⟨S1000000x64, .f32⟩
  | .hbm, ⟨39, _⟩ => ⟨S_, .f32⟩
  | .hbm, ⟨40, _⟩ => ⟨S1000000x64, .f32⟩
  | .hbm, ⟨41, _⟩ => ⟨S1000000x64, .f32⟩
  | .hbm, ⟨42, _⟩ => ⟨S1000000x64, .f32⟩
  | .hbm, ⟨43, _⟩ => ⟨S1000000x64, .f32⟩
  | .hbm, ⟨44, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  dot_S1000000x3_S3x64_S1000000x64_1_0_0_1_n_n_wf : DotDims.WF S1000000x3 S3x64 S1000000x64 [1] [0] [0] [1] [] []
  dot_S1000000x64_S64x64_S1000000x64_1_0_0_1_n_n_wf : DotDims.WF S1000000x64 S64x64 S1000000x64 [1] [0] [0] [1] [] []

variable [Facts₀]

def dot_S1000000x3_S3x64_S1000000x64_1_0_0_1_n_n : DotDims S1000000x3 S3x64 S1000000x64 where
  lhsContracting := [1]
  rhsContracting := [0]
  lhsNonContracting := [0]
  rhsNonContracting := [1]
  lhsBatch := []
  rhsBatch := []
  wf := dot_S1000000x3_S3x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf

class Facts : Prop extends Facts₀ where

variable [Facts]
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.GatedCell.lean ====
/-
  The gated recurrent cell as ONE function of whole arrays, at the extended reals.

  A row of the batch carries three input features x and sixty-four state units s. Each of the four gates has a
  pre-activation: the features times a 3 x 64 matrix, plus a 64-vector times a 64 x 64 matrix, plus a bias row.
  For the update, forget and reset gates that 64-vector is the state s itself; for the candidate it is the state
  multiplied entry by entry by the reset gate. With Z, G, R, H the hyperbolic tangents of the four
  pre-activations, the new state is (1 - G) * H + Z * s.

  Every entry of the result in row r depends on row r of the features and of the state only (and on the
  weights), so the function computed on a block of consecutive rows is the restriction of the function
  computed on the whole batch: `cell_rows`.
-/
import Idealize.ShloMosaic.Lib.ValueIdx
import Idealize.ShloMosaic.PureOps.Ideal

noncomputable section

open scoped BigOperators

namespace Cert.GatedCell

open Idealize.ShloMosaic Idealize.ShloMosaic.ValueIdx

variable {M M' : Nat}

/-- A gate's pre-activation at (row, column): the row of `X` against the column of `U`, plus the row of `S`
    against the column of `W`, plus the bias at the column. -/
def lin (X : (⟨2, ![M, 3]⟩ : Shape).Idx → EReal) (S : (⟨2, ![M, 64]⟩ : Shape).Idx → EReal)
    (U : (⟨2, ![3, 64]⟩ : Shape).Idx → EReal) (W : (⟨2, ![64, 64]⟩ : Shape).Idx → EReal)
    (b : (⟨2, ![1, 64]⟩ : Shape).Idx → EReal) : (⟨2, ![M, 64]⟩ : Shape).Idx → EReal :=
  fun j => (∑ k : Fin 3, X (ix2 (j 0) k) * U (ix2 k (j 1))) + (∑ k : Fin 64, S (ix2 (j 0) k) * W (ix2 k (j 1)))
    + b (ix2 (0 : Fin 1) (j 1))

/-- The state the candidate gate multiplies: the state times the reset gate, entry by entry. -/
def resetState (X : (⟨2, ![M, 3]⟩ : Shape).Idx → EReal) (S : (⟨2, ![M, 64]⟩ : Shape).Idx → EReal)
    (Ur : (⟨2, ![3, 64]⟩ : Shape).Idx → EReal) (Wr : (⟨2, ![64, 64]⟩ : Shape).Idx → EReal)
    (br : (⟨2, ![1, 64]⟩ : Shape).Idx → EReal) : (⟨2, ![M, 64]⟩ : Shape).Idx → EReal :=
  fun i => S i * Ideal.tanh (lin X S Ur Wr br i)

/-- The new state: (1 - G) * H + Z * S, the literal one being the value of its f32 word. -/
def cell (X : (⟨2, ![M, 3]⟩ : Shape).Idx → EReal) (S : (⟨2, ![M, 64]⟩ : Shape).Idx → EReal)
    (Uz Ug Ur Uh : (⟨2, ![3, 64]⟩ : Shape).Idx → EReal) (Wz Wg Wr Wh : (⟨2, ![64, 64]⟩ : Shape).Idx → EReal)
    (bz bg br bh : (⟨2, ![1, 64]⟩ : Shape).Idx → EReal) : (⟨2, ![M, 64]⟩ : Shape).Idx → EReal :=
  fun j => (Ideal.ofBits .f32 0x3F800000#32 - Ideal.tanh (lin X S Ug Wg bg j))
        * Ideal.tanh (lin X (resetState X S Ur Wr br) Uh Wh bh j)
      + Ideal.tanh (lin X S Uz Wz bz j) * S j

/-- A pre-activation in row `p` reads row `p` of the features and of the state only. -/
theorem lin_rows (X : (⟨2, ![M, 3]⟩ : Shape).Idx → EReal) (X' : (⟨2, ![M', 3]⟩ : Shape).Idx → EReal)
    (S : (⟨2, ![M, 64]⟩ : Shape).Idx → EReal) (S' : (⟨2, ![M', 64]⟩ : Shape).Idx → EReal)
    (U : (⟨2, ![3, 64]⟩ : Shape).Idx → EReal) (W : (⟨2, ![64, 64]⟩ : Shape).Idx → EReal)
    (b : (⟨2, ![1, 64]⟩ : Shape).Idx → EReal) (p : Fin M) (p' : Fin M')
    (hX : ∀ k : Fin 3, X (ix2 p k) = X' (ix2 p' k)) (hS : ∀ k : Fin 64, S (ix2 p k) = S' (ix2 p' k)) (q : Fin 64) :
    lin X S U W b (ix2 p q) = lin X' S' U W b (ix2 p' q) := by
  show (∑ k : Fin 3, X (ix2 p k) * U (ix2 k q)) + (∑ k : Fin 64, S (ix2 p k) * W (ix2 k q)) + b (ix2 (0 : Fin 1) q)
    = (∑ k : Fin 3, X' (ix2 p' k) * U (ix2 k q)) + (∑ k : Fin 64, S' (ix2 p' k) * W (ix2 k q)) + b (ix2 (0 : Fin 1) q)
  simp only [hX, hS]

/-- The new state in row `p` reads row `p` of the features and of the state only: two batches that agree on a
    row have the same new state in that row. -/
theorem cell_rows (X : (⟨2, ![M, 3]⟩ : Shape).Idx → EReal) (X' : (⟨2, ![M', 3]⟩ : Shape).Idx → EReal)
    (S : (⟨2, ![M, 64]⟩ : Shape).Idx → EReal) (S' : (⟨2, ![M', 64]⟩ : Shape).Idx → EReal)
    (Uz Ug Ur Uh : (⟨2, ![3, 64]⟩ : Shape).Idx → EReal) (Wz Wg Wr Wh : (⟨2, ![64, 64]⟩ : Shape).Idx → EReal)
    (bz bg br bh : (⟨2, ![1, 64]⟩ : Shape).Idx → EReal) (p : Fin M) (p' : Fin M')
    (hX : ∀ k : Fin 3, X (ix2 p k) = X' (ix2 p' k)) (hS : ∀ k : Fin 64, S (ix2 p k) = S' (ix2 p' k)) (q : Fin 64) :
    cell X S Uz Ug Ur Uh Wz Wg Wr Wh bz bg br bh (ix2 p q) = cell X' S' Uz Ug Ur Uh Wz Wg Wr Wh bz bg br bh (ix2 p' q) := by
  have hz := lin_rows X X' S S' Uz Wz bz p p' hX hS q
  have hg := lin_rows X X' S S' Ug Wg bg p p' hX hS q
  have hr : ∀ k : Fin 64, resetState X S Ur Wr br (ix2 p k) = resetState X' S' Ur Wr br (ix2 p' k) := fun k => by
    show S (ix2 p k) * Ideal.tanh (lin X S Ur Wr br (ix2 p k)) = S' (ix2 p' k) * Ideal.tanh (lin X' S' Ur Wr br (ix2 p' k))
    rw [hS k, lin_rows X X' S S' Ur Wr br p p' hX hS k]
  have hh := lin_rows X X' (resetState X S Ur Wr br) (resetState X' S' Ur Wr br) Uh Wh bh p p' hX hr q
  show (Ideal.ofBits .f32 0x3F800000#32 - Ideal.tanh (lin X S Ug Wg bg (ix2 p q)))
        * Ideal.tanh (lin X (resetState X S Ur Wr br) Uh Wh bh (ix2 p q))
      + Ideal.tanh (lin X S Uz Wz bz (ix2 p q)) * S (ix2 p q) = _
  rw [hz, hg, hh, hS q]
  rfl

end Cert.GatedCell

end
-- ==== Proof.KernelPayload.lean ====
/-
  The kernel body's stored value, at the extended reals, is the gated cell of the blocks it loaded.

  The body loads a block of feature rows, the matching block of state rows, the eight weight matrices and the
  four bias rows, and stores one value. At the extended reals a change of float format is the identity and a
  matrix product into a zero accumulator is the plain sum of products, so each gate's pre-activation
  (two matrix products and a bias row broadcast over the rows, added left to right) is `GatedCell.lin` of the
  loaded blocks, and the stored value is `GatedCell.cell` of them.
-/
import proofs.«168768_j12584254177428_1_alg».proof.Proof.Gen.KernelIdeal.Skeleton
import proofs.«168768_j12584254177428_1_alg».proof.Proof.LibPlainDot
import proofs.«168768_j12584254177428_1_alg».proof.Proof.GatedCell
import Idealize.ShloMosaic.Lib.Pipeline.Value
import Idealize.ShloMosaic.Lib.ValueLayout

noncomputable section

namespace Cert.KernelIdeal.Payload

open Cert.KernelIdeal Cert.KernelIdeal.Gen Idealize.ShloMosaic Idealize.ShloMosaic.ValueIdx Cert.GatedCell

/-- The printed dimension numbers of the features' product are the plain rows-by-columns ones. -/
theorem dims_features : dot_S5000x3_S3x64_S5000x64_1_0_0_1_n_n = DotDims.plain 5000 3 64 := rfl
/-- The printed dimension numbers of the state's product are the plain rows-by-columns ones. -/
theorem dims_state : dot_S5000x64_S64x64_S5000x64_1_0_0_1_n_n = DotDims.plain 5000 64 64 := rfl

/-- One gate's pre-activation as the body computes it — the features' product, plus the state's product, plus the
    bias row broadcast over the rows — is `lin` of the same operands. -/
theorem pre_eq (x : FVec Ideal S5000x3 .bf16) (s : FVec Ideal S5000x64 .bf16) (U : FVec Ideal S3x64 .bf16)
    (W : FVec Ideal S64x64 .bf16) (b : Vec Ideal S1x64 .f32) :
    addf (addf (matmul dot_S5000x3_S3x64_S5000x64_1_0_0_1_n_n none x U (constant S5000x64 .f32 0x00000000#32))
          (matmul dot_S5000x64_S64x64_S5000x64_1_0_0_1_n_n none s W (constant S5000x64 .f32 0x00000000#32)))
        (broadcastTo S5000x64 b broadcasts_S1x64_S5000x64)
      = lin (M := 5000) x s U W b := by
  funext j
  obtain ⟨p, q, rfl⟩ : ∃ (p : Fin 5000) (q : Fin 64), j = ix2 p q := ⟨j 0, j 1, eq_ix2 j⟩
  show FloatOps.matmul dot_S5000x3_S3x64_S5000x64_1_0_0_1_n_n none x U (constant S5000x64 .f32 0x00000000#32) (ix2 p q)
      + FloatOps.matmul dot_S5000x64_S64x64_S5000x64_1_0_0_1_n_n none s W (constant S5000x64 .f32 0x00000000#32) (ix2 p q)
      + broadcastTo S5000x64 b broadcasts_S1x64_S5000x64 (ix2 p q) = _
  rw [dims_features, dims_state]
  rw [Cert.PlainDot.matmul_zero_apply, Cert.PlainDot.matmul_zero_apply, broadcastTo_1b_ab_apply]
  rfl

/-- The stored value is the gated cell of the loaded blocks. -/
theorem stored_eq (x0 : Vec Ideal S5000x3 .f32) (x1 : Vec Ideal S5000x64 .f32)
    (u2 u3 u4 u5 : Vec Ideal S3x64 .bf16) (w6 w7 w8 w9 : Vec Ideal S64x64 .bf16) (b10 b11 b12 b13 : Vec Ideal S1x64 .f32) :
    k0_pay1 (k0_pay2 x0) x1 (k0_pay3 x1) (k0_pay4 u3) (k0_pay5 u4) (k0_pay6 u5) (k0_pay7 w7) (k0_pay8 w8) (k0_pay9 w9)
        b11 b12 b13 (k0_pay10 x0 x1 u2 w6 b10)
      = cell (M := 5000) x0 x1 u2 u3 u4 u5 w6 w7 w8 w9 b10 b11 b12 b13 := by
  unfold k0_pay1 k0_pay2 k0_pay3 k0_pay4 k0_pay5 k0_pay6 k0_pay7 k0_pay8 k0_pay9 k0_pay10
  simp only [shapeCast_self]
  simp only [pre_eq]
  rfl

end Cert.KernelIdeal.Payload

end
-- ==== Proof.KernelArray.lean ====
/-
  From the kernel's blocks to its whole result array.

  The grid has 200 points; point t stages rows 5000 t … 5000 t + 4999 of the features and of the state, the eight
  weight matrices and the four bias rows whole, and writes back rows 5000 t … 5000 t + 4999 of the result. The
  weight matrices reach the kernel through a change of float format made before the launch, which is the
  identity at the extended reals. What point t writes back is the gated cell of its blocks (the stored value,
  `Payload.stored_eq`), and since the cell in a row reads that row only (`GatedCell.cell_rows`) it is rows
  5000 t … 5000 t + 4999 of the gated cell of the whole argument arrays. The 200 row blocks tile the array, so
  after the run the result array is the gated cell of the arguments.
-/
import proofs.«168768_j12584254177428_1_alg».proof.Proof.Gen.KernelIdeal.Value
import proofs.«168768_j12584254177428_1_alg».proof.Proof.KernelPayload
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.GatedCell
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Two rank-2 indices with the same coordinates are equal. -/
theorem idx2_ext {n0 n1 : Nat} {i j : (⟨2, ![n0, n1]⟩ : Shape).Idx} (h0 : (i 0).val = (j 0).val)
    (h1 : (i 1).val = (j 1).val) : i = j :=
  funext fun a => Fin.ext (by match a with | ⟨0, _⟩ => exact h0 | ⟨1, _⟩ => exact h1)

/-! ## The printed index maps, decided over the 200 grid points -/

/-- The result's row-block index is at most 199 and its column-block index 0; the features' and the state's
    blocks move with it. -/
theorem idx_rows : ∀ t : Fin cfg0.N,
    win0_14.index t (0 : Fin 2) ≤ 199 ∧ win0_14.index t (1 : Fin 2) = 0
    ∧ win0_0.index t (0 : Fin 2) = win0_14.index t (0 : Fin 2) ∧ win0_0.index t (1 : Fin 2) = 0
    ∧ win0_1.index t (0 : Fin 2) = win0_14.index t (0 : Fin 2) ∧ win0_1.index t (1 : Fin 2) = 0 :=
  (by decide +kernel : ∀ t : Fin grid0.N, _)

/-- Row block q of the result is written by grid point q. -/
theorem idx_at : ∀ q : Fin 200, win0_14.index (Fin.cast N_0.symm q) (0 : Fin 2) = q.val :=
  (by decide +kernel : ∀ q : Fin 200, win0_14.index (Fin.cast N_0.symm q) (0 : Fin 2) = q.val)

/-- Every weight and bias window stays at block (0, 0). -/
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)
theorem idx_w12 : ∀ t : Fin cfg0.N, win0_12.index t (0 : Fin 2) = 0 ∧ win0_12.index t (1 : Fin 2) = 0 :=
  (by decide +kernel : ∀ t : Fin grid0.N, _)
theorem idx_w13 : ∀ t : Fin cfg0.N, win0_13.index t (0 : Fin 2) = 0 ∧ win0_13.index t (1 : Fin 2) = 0 :=
  (by decide +kernel : ∀ t : Fin grid0.N, _)

/-! ## The weight matrices as the region finds them: the arguments, their format changed -/

theorem V_main_v0 (c : Dev nD) :
    (V m c main_v0 : S3x64.Idx → EReal) = (m ((c : Thread nD τ).loc main_arg2) : S3x64.Idx → EReal) := by
  dsimp only [V, hostOps0]; after_results; rfl
theorem V_main_v1 (c : Dev nD) :
    (V m c main_v1 : S3x64.Idx → EReal) = (m ((c : Thread nD τ).loc main_arg3) : S3x64.Idx → EReal) := by
  dsimp only [V, hostOps0]; after_results; rfl
theorem V_main_v2 (c : Dev nD) :
    (V m c main_v2 : S3x64.Idx → EReal) = (m ((c : Thread nD τ).loc main_arg4) : S3x64.Idx → EReal) := by
  dsimp only [V, hostOps0]; after_results; rfl
theorem V_main_v3 (c : Dev nD) :
    (V m c main_v3 : S3x64.Idx → EReal) = (m ((c : Thread nD τ).loc main_arg5) : S3x64.Idx → EReal) := by
  dsimp only [V, hostOps0]; after_results; rfl
theorem V_main_v4 (c : Dev nD) :
    (V m c main_v4 : S64x64.Idx → EReal) = (m ((c : Thread nD τ).loc main_arg6) : S64x64.Idx → EReal) := by
  dsimp only [V, hostOps0]; after_results; rfl
theorem V_main_v5 (c : Dev nD) :
    (V m c main_v5 : S64x64.Idx → EReal) = (m ((c : Thread nD τ).loc main_arg7) : S64x64.Idx → EReal) := by
  dsimp only [V, hostOps0]; after_results; rfl
theorem V_main_v6 (c : Dev nD) :
    (V m c main_v6 : S64x64.Idx → EReal) = (m ((c : Thread nD τ).loc main_arg8) : S64x64.Idx → EReal) := by
  dsimp only [V, hostOps0]; after_results; rfl
theorem V_main_v7 (c : Dev nD) :
    (V m c main_v7 : S64x64.Idx → EReal) = (m ((c : Thread nD τ).loc main_arg9) : S64x64.Idx → EReal) := by
  dsimp only [V, hostOps0]; after_results; rfl

/-! ## Each weight or bias window's block, at any point, is its whole argument -/

theorem wblk2 (c : Dev nD) (t : Fin cfg0.N) :
    (iblk m c 2 t : Vec Ideal S3x64 .bf16) = (m ((c : Thread nD τ).loc main_arg2) : S3x64.Idx → EReal) := by
  funext y
  show V m c main_v0 (((cfg0.win 2).blk t).view.emb y) = _
  rw [← V_main_v0 m c]
  exact congrArg _ (idx2_ext
    (by show win0_2.index t (0 : Fin 2) * 3 + 1 * (y 0).val = (y 0).val; rw [(idx_w2 t).1]; omega)
    (by show win0_2.index t (1 : Fin 2) * 64 + 1 * (y 1).val = (y 1).val; rw [(idx_w2 t).2]; omega))
theorem wblk3 (c : Dev nD) (t : Fin cfg0.N) :
    (iblk m c 3 t : Vec Ideal S3x64 .bf16) = (m ((c : Thread nD τ).loc main_arg3) : S3x64.Idx → EReal) := by
  funext y
  show V m c main_v1 (((cfg0.win 3).blk t).view.emb y) = _
  rw [← V_main_v1 m c]
  exact congrArg _ (idx2_ext
    (by show win0_3.index t (0 : Fin 2) * 3 + 1 * (y 0).val = (y 0).val; rw [(idx_w3 t).1]; omega)
    (by show win0_3.index t (1 : Fin 2) * 64 + 1 * (y 1).val = (y 1).val; rw [(idx_w3 t).2]; omega))
theorem wblk4 (c : Dev nD) (t : Fin cfg0.N) :
    (iblk m c 4 t : Vec Ideal S3x64 .bf16) = (m ((c : Thread nD τ).loc main_arg4) : S3x64.Idx → EReal) := by
  funext y
  show V m c main_v2 (((cfg0.win 4).blk t).view.emb y) = _
  rw [← V_main_v2 m c]
  exact congrArg _ (idx2_ext
    (by show win0_4.index t (0 : Fin 2) * 3 + 1 * (y 0).val = (y 0).val; rw [(idx_w4 t).1]; omega)
    (by show win0_4.index t (1 : Fin 2) * 64 + 1 * (y 1).val = (y 1).val; rw [(idx_w4 t).2]; omega))
theorem wblk5 (c : Dev nD) (t : Fin cfg0.N) :
    (iblk m c 5 t : Vec Ideal S3x64 .bf16) = (m ((c : Thread nD τ).loc main_arg5) : S3x64.Idx → EReal) := by
  funext y
  show V m c main_v3 (((cfg0.win 5).blk t).view.emb y) = _
  rw [← V_main_v3 m c]
  exact congrArg _ (idx2_ext
    (by show win0_5.index t (0 : Fin 2) * 3 + 1 * (y 0).val = (y 0).val; rw [(idx_w5 t).1]; omega)
    (by show win0_5.index t (1 : Fin 2) * 64 + 1 * (y 1).val = (y 1).val; rw [(idx_w5 t).2]; omega))
theorem wblk6 (c : Dev nD) (t : Fin cfg0.N) :
    (iblk m c 6 t : Vec Ideal S64x64 .bf16) = (m ((c : Thread nD τ).loc main_arg6) : S64x64.Idx → EReal) := by
  funext y
  show V m c main_v4 (((cfg0.win 6).blk t).view.emb y) = _
  rw [← V_main_v4 m c]
  exact congrArg _ (idx2_ext
    (by show win0_6.index t (0 : Fin 2) * 64 + 1 * (y 0).val = (y 0).val; rw [(idx_w6 t).1]; omega)
    (by show win0_6.index t (1 : Fin 2) * 64 + 1 * (y 1).val = (y 1).val; rw [(idx_w6 t).2]; omega))
theorem wblk7 (c : Dev nD) (t : Fin cfg0.N) :
    (iblk m c 7 t : Vec Ideal S64x64 .bf16) = (m ((c : Thread nD τ).loc main_arg7) : S64x64.Idx → EReal) := by
  funext y
  show V m c main_v5 (((cfg0.win 7).blk t).view.emb y) = _
  rw [← V_main_v5 m c]
  exact congrArg _ (idx2_ext
    (by show win0_7.index t (0 : Fin 2) * 64 + 1 * (y 0).val = (y 0).val; rw [(idx_w7 t).1]; omega)
    (by show win0_7.index t (1 : Fin 2) * 64 + 1 * (y 1).val = (y 1).val; rw [(idx_w7 t).2]; omega))
theorem wblk8 (c : Dev nD) (t : Fin cfg0.N) :
    (iblk m c 8 t : Vec Ideal S64x64 .bf16) = (m ((c : Thread nD τ).loc main_arg8) : S64x64.Idx → EReal) := by
  funext y
  show V m c main_v6 (((cfg0.win 8).blk t).view.emb y) = _
  rw [← V_main_v6 m c]
  exact congrArg _ (idx2_ext
    (by show win0_8.index t (0 : Fin 2) * 64 + 1 * (y 0).val = (y 0).val; rw [(idx_w8 t).1]; omega)
    (by show win0_8.index t (1 : Fin 2) * 64 + 1 * (y 1).val = (y 1).val; rw [(idx_w8 t).2]; omega))
theorem wblk9 (c : Dev nD) (t : Fin cfg0.N) :
    (iblk m c 9 t : Vec Ideal S64x64 .bf16) = (m ((c : Thread nD τ).loc main_arg9) : S64x64.Idx → EReal) := by
  funext y
  show V m c main_v7 (((cfg0.win 9).blk t).view.emb y) = _
  rw [← V_main_v7 m c]
  exact congrArg _ (idx2_ext
    (by show win0_9.index t (0 : Fin 2) * 64 + 1 * (y 0).val = (y 0).val; rw [(idx_w9 t).1]; omega)
    (by show win0_9.index t (1 : Fin 2) * 64 + 1 * (y 1).val = (y 1).val; rw [(idx_w9 t).2]; omega))
theorem wblk10 (c : Dev nD) (t : Fin cfg0.N) :
    (iblk m c 10 t : Vec Ideal S1x64 .f32) = (m ((c : Thread nD τ).loc main_arg10) : S1x64.Idx → EReal) := by
  funext y
  show V m c main_arg10 (((cfg0.win 10).blk t).view.emb y) = _
  rw [V_main_arg10]
  exact congrArg _ (idx2_ext
    (by show win0_10.index t (0 : Fin 2) * 1 + 1 * (y 0).val = (y 0).val; rw [(idx_w10 t).1]; omega)
    (by show win0_10.index t (1 : Fin 2) * 64 + 1 * (y 1).val = (y 1).val; rw [(idx_w10 t).2]; omega))
theorem wblk11 (c : Dev nD) (t : Fin cfg0.N) :
    (iblk m c 11 t : Vec Ideal S1x64 .f32) = (m ((c : Thread nD τ).loc main_arg11) : S1x64.Idx → EReal) := by
  funext y
  show V m c main_arg11 (((cfg0.win 11).blk t).view.emb y) = _
  rw [V_main_arg11]
  exact congrArg _ (idx2_ext
    (by show win0_11.index t (0 : Fin 2) * 1 + 1 * (y 0).val = (y 0).val; rw [(idx_w11 t).1]; omega)
    (by show win0_11.index t (1 : Fin 2) * 64 + 1 * (y 1).val = (y 1).val; rw [(idx_w11 t).2]; omega))
theorem wblk12 (c : Dev nD) (t : Fin cfg0.N) :
    (iblk m c 12 t : Vec Ideal S1x64 .f32) = (m ((c : Thread nD τ).loc main_arg12) : S1x64.Idx → EReal) := by
  funext y
  show V m c main_arg12 (((cfg0.win 12).blk t).view.emb y) = _
  rw [V_main_arg12]
  exact congrArg _ (idx2_ext
    (by show win0_12.index t (0 : Fin 2) * 1 + 1 * (y 0).val = (y 0).val; rw [(idx_w12 t).1]; omega)
    (by show win0_12.index t (1 : Fin 2) * 64 + 1 * (y 1).val = (y 1).val; rw [(idx_w12 t).2]; omega))
theorem wblk13 (c : Dev nD) (t : Fin cfg0.N) :
    (iblk m c 13 t : Vec Ideal S1x64 .f32) = (m ((c : Thread nD τ).loc main_arg13) : S1x64.Idx → EReal) := by
  funext y
  show V m c main_arg13 (((cfg0.win 13).blk t).view.emb y) = _
  rw [V_main_arg13]
  exact congrArg _ (idx2_ext
    (by show win0_13.index t (0 : Fin 2) * 1 + 1 * (y 0).val = (y 0).val; rw [(idx_w13 t).1]; omega)
    (by show win0_13.index t (1 : Fin 2) * 64 + 1 * (y 1).val = (y 1).val; rw [(idx_w13 t).2]; omega))

/-! ## The features' and the state's blocks: rows of the arguments -/

/-- Row `p` of the features' block at point `t` is row `5000 · (block index) + p` of the features. -/
theorem xblk_apply (c : Dev nD) (t : Fin cfg0.N) (p : Fin 5000) (k : Fin 3) (r : Fin 1000000)
    (hr : r.val = win0_14.index t (0 : Fin 2) * 5000 + p.val) :
    (iblk m c 0 t : Vec Ideal S5000x3 .f32) (ix2 p k)
      = (m ((c : Thread nD τ).loc main_arg1) : S1000000x3.Idx → EReal) (ix2 r k) := by
  obtain ⟨-, -, h0, h1, -, -⟩ := idx_rows t
  show V m c main_arg1 (((cfg0.win 0).blk t).view.emb (ix2 p k)) = _
  rw [V_main_arg1]
  exact congrArg _ (idx2_ext
    (by show win0_0.index t (0 : Fin 2) * 5000 + 1 * p.val = r.val; rw [h0, hr]; omega)
    (by show win0_0.index t (1 : Fin 2) * 3 + 1 * k.val = k.val; rw [h1]; omega))

/-- Row `p` of the state's block at point `t` is row `5000 · (block index) + p` of the state. -/
theorem sblk_apply (c : Dev nD) (t : Fin cfg0.N) (p : Fin 5000) (k : Fin 64) (r : Fin 1000000)
    (hr : r.val = win0_14.index t (0 : Fin 2) * 5000 + p.val) :
    (iblk m c 1 t : Vec Ideal S5000x64 .f32) (ix2 p k)
      = (m ((c : Thread nD τ).loc main_arg0) : S1000000x64.Idx → EReal) (ix2 r k) := by
  obtain ⟨-, -, -, -, h0, h1⟩ := idx_rows t
  show V m c main_arg0 (((cfg0.win 1).blk t).view.emb (ix2 p k)) = _
  rw [V_main_arg0]
  exact congrArg _ (idx2_ext
    (by show win0_1.index t (0 : Fin 2) * 5000 + 1 * p.val = r.val; rw [h0, hr]; omega)
    (by show win0_1.index t (1 : Fin 2) * 64 + 1 * k.val = k.val; rw [h1]; omega))

/-! ## The result array -/

/-- The gated cell of the argument arrays as launched on core `c`. -/
def result (c : Dev nD) : S1000000x64.Idx → EReal :=
  cell (M := 1000000) (m ((c : Thread nD τ).loc main_arg1)) (m ((c : Thread nD τ).loc main_arg0))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))

/-- What point `t` writes back is its block of rows of `result`. -/
theorem flushed_eq (c : Dev nD) (t : Fin cfg0.N) :
    (dats m 0 c).flushed 14 t = ((cfg0.win 14).blk t).view.read (Elt Ideal) (result m c) := by
  rw [Value.flushed14]
  unfold out0_14
  rw [View.canon_unit_zero hz]
  simp only [View.ld_unit_zero (S := S5000x3) hz, View.ld_unit_zero (S := S5000x64) hz, View.ld_unit_zero (S := S3x64) hz,
    View.ld_unit_zero (S := S64x64) hz, View.ld_unit_zero (S := S1x64) hz]
  rw [Payload.stored_eq]
  rw [wblk2 m c t, wblk3 m c t, wblk4 m c t, wblk5 m c t, wblk6 m c t, wblk7 m c t, wblk8 m c t, wblk9 m c t,
    wblk10 m c t, wblk11 m c t, wblk12 m c t, wblk13 m c t]
  obtain ⟨f0, f1, -, -, -, -⟩ := idx_rows t
  funext y
  obtain ⟨p, q, rfl⟩ : ∃ (p : Fin 5000) (q : Fin 64), y = ix2 p q := ⟨y 0, y 1, eq_ix2 y⟩
  have hrow : win0_14.index t (0 : Fin 2) * 5000 + p.val < 1000000 := by have := p.isLt; omega
  have hi : ((cfg0.win 14).blk t).view.emb (ix2 p q)
      = ix2 (⟨win0_14.index t (0 : Fin 2) * 5000 + p.val, hrow⟩ : Fin 1000000) q :=
    idx2_ext
      (by show win0_14.index t (0 : Fin 2) * 5000 + 1 * p.val = win0_14.index t (0 : Fin 2) * 5000 + p.val; omega)
      (by show win0_14.index t (1 : Fin 2) * 64 + 1 * q.val = q.val; rw [f1]; omega)
  show cell (M := 5000) (iblk m c 0 t) (iblk m c 1 t) _ _ _ _ _ _ _ _ _ _ _ _ (ix2 p q)
    = result m c (((cfg0.win 14).blk t).view.emb (ix2 p q))
  rw [hi]
  exact cell_rows _ _ _ _ _ _ _ _ _ _ _ _ _ _ _ _ p _ (fun k => xblk_apply m c t p k _ rfl)
    (fun k => sblk_apply m c t p k _ rfl) q

/-- An index of the array is in point `t`'s block iff each coordinate is in the block's range on its axis. -/
theorem mem_blk (t : Fin cfg0.N) (i : S1000000x64.Idx) :
    i ∈ ((cfg0.win 14).blk t).view.set ↔ ∀ a : Fin 2, win0_14.index t a * S5000x64.size a ≤ (i a).val
      ∧ (i a).val < win0_14.index t a * S5000x64.size a + S5000x64.size a := by
  show i ∈ ((View.whole main_v8).slice (win0_14.rect t)).set ↔ _
  rw [View.set_slice_whole, Rect.mem_set_unit]
  exact Iff.rfl

/-- Every index of the result is in some point's block: row `r` is in the block of point `r / 5000`. -/
theorem cover (i : S1000000x64.Idx) :
    ∃ t : Fin cfg0.N, (cfg0.win 14).flush t = true ∧ i ∈ ((cfg0.win 14).blk t).view.set := by
  have hi0 : (i 0).val < 1000000 := (i 0).isLt
  have hi1 : (i 1).val < 64 := (i 1).isLt
  have hq : (i 0).val / 5000 < 200 := by omega
  have q0 : win0_14.index (Fin.cast N_0.symm ⟨(i 0).val / 5000, hq⟩) (0 : Fin 2) = (i 0).val / 5000 := idx_at ⟨(i 0).val / 5000, hq⟩
  obtain ⟨-, q1, -, -, -, -⟩ := idx_rows (Fin.cast N_0.symm ⟨(i 0).val / 5000, hq⟩)
  refine ⟨Fin.cast N_0.symm ⟨(i 0).val / 5000, hq⟩, flush0_14 _, ?_⟩
  rw [mem_blk]
  intro a
  match a with
  | ⟨0, _⟩ =>
    show win0_14.index _ (0 : Fin 2) * 5000 ≤ (i 0).val ∧ (i 0).val < win0_14.index _ (0 : Fin 2) * 5000 + 5000
    rw [q0]; omega
  | ⟨1, _⟩ =>
    show win0_14.index _ (1 : Fin 2) * 64 ≤ (i 1).val ∧ (i 1).val < win0_14.index _ (1 : Fin 2) * 64 + 64
    rw [q1]; omega

/-- After the run the result array is the gated cell of the arguments. -/
theorem final (c : Dev nD) : (dats m 0 c).arrAt 14 cfg0.N = result m c :=
  (dats m 0 c).arrAt_eq_of_cover 14 (result m c) (fun t _ => flushed_eq m c t) cover

/-- The kernel's run: every weakly fair execution ends with the result array at the gated cell of the arguments
    and the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.Whole

end
-- ==== Proof.ReferenceCell.lean ====
/-
  The reference's result, at the extended reals, is the gated cell of its arguments.

  The reference computes each gate's pre-activation on the whole batch: the features' dot product with a 3 x 64
  matrix, plus the state's dot product with a 64 x 64 matrix, plus the bias row broadcast over the rows. At the
  extended reals the host's dot product is the plain sum of products, so each pre-activation is
  `GatedCell.lin` of the arguments and the result is `GatedCell.cell` of them: the same operations in the
  same order, entry by entry.
-/
import proofs.«168768_j12584254177428_1_alg».proof.Proof.Gen.ReferenceIdeal.Read
import proofs.«168768_j12584254177428_1_alg».proof.Proof.LibPlainDot
import proofs.«168768_j12584254177428_1_alg».proof.Proof.GatedCell
import Idealize.ShloMosaic.Lib.Pipeline.Value

noncomputable section

namespace Cert.ReferenceIdeal.RefValue

open Cert.ReferenceIdeal Cert.ReferenceIdeal.Gen Idealize.ShloMosaic Idealize.ShloMosaic.ValueIdx Cert.GatedCell

/-- The printed dimension numbers of the features' product are the plain rows-by-columns ones. -/
theorem dims_features : dot_S1000000x3_S3x64_S1000000x64_1_0_0_1_n_n = DotDims.plain 1000000 3 64 := rfl
/-- The printed dimension numbers of the state's product are the plain rows-by-columns ones. -/
theorem dims_state : dot_S1000000x64_S64x64_S1000000x64_1_0_0_1_n_n = DotDims.plain 1000000 64 64 := rfl

/-- A bias row broadcast over the batch reads, at (row, column), the bias at the column. -/
theorem bias_apply (b : FVec Ideal S1x64 .f32) (r : Fin 1000000) (q : Fin 64) :
    broadcastInDim S1000000x64 ![0, 1] bcast_S1x64_S1000000x64_0_1 b (ix2 r q) = b (ix2 (0 : Fin 1) q) :=
  broadcastInDim_apply _ bcast_S1x64_S1000000x64_0_1 b (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])

/-- One gate's pre-activation as the reference computes it is `lin` of the same operands. -/
theorem pre_eq (X : FVec Ideal S1000000x3 .f32) (S : FVec Ideal S1000000x64 .f32)
    (U : FVec Ideal S3x64 .f32) (W : FVec Ideal S64x64 .f32) (b : FVec Ideal S1x64 .f32) :
    addf (F := Ideal) (addf (F := Ideal) (Host.dotGeneral (F := Ideal) dot_S1000000x3_S3x64_S1000000x64_1_0_0_1_n_n none X U)
          (Host.dotGeneral (F := Ideal) dot_S1000000x64_S64x64_S1000000x64_1_0_0_1_n_n none S W))
        (broadcastInDim S1000000x64 ![0, 1] bcast_S1x64_S1000000x64_0_1 b)
      = lin (M := 1000000) X S U W b := by
  funext j
  obtain ⟨r, q, rfl⟩ : ∃ (r : Fin 1000000) (q : Fin 64), j = ix2 r q := ⟨j 0, j 1, eq_ix2 j⟩
  show FloatOps.dotGeneral (F := Ideal) dot_S1000000x3_S3x64_S1000000x64_1_0_0_1_n_n none .single X U (ix2 r q)
      + FloatOps.dotGeneral (F := Ideal) dot_S1000000x64_S64x64_S1000000x64_1_0_0_1_n_n none .single S W (ix2 r q)
      + broadcastInDim S1000000x64 ![0, 1] bcast_S1x64_S1000000x64_0_1 b (ix2 r q) = _
  rw [dims_features, dims_state]
  rw [Cert.PlainDot.dotGeneral_apply, Cert.PlainDot.dotGeneral_apply, bias_apply]
  rfl

/-- The reference's result is the gated cell of its arguments (features second, state first, as @main takes them). -/
theorem result_eq (x0 : (⟨S1000000x64, .f32⟩ : BufTy).Contents (Elt Ideal)) (x1 : (⟨S1000000x3, .f32⟩ : BufTy).Contents (Elt Ideal))
    (x2 x3 x4 x5 : (⟨S3x64, .f32⟩ : BufTy).Contents (Elt Ideal)) (x6 x7 x8 x9 : (⟨S64x64, .f32⟩ : BufTy).Contents (Elt Ideal))
    (x10 x11 x12 x13 : (⟨S1x64, .f32⟩ : BufTy).Contents (Elt Ideal)) :
    Read.val_main_v29 (F := Ideal) x0 x1 x2 x3 x4 x5 x6 x7 x8 x9 x10 x11 x12 x13
      = cell (M := 1000000) x1 x0 x2 x3 x4 x5 x6 x7 x8 x9 x10 x11 x12 x13 := by
  rw [← Read.val_main_v29_eq]
  rw [pre_eq x1 x0 x3 x7 x11, pre_eq x1 x0 x2 x6 x10, pre_eq x1 x0 x4 x8 x12, pre_eq x1 _ x5 x9 x13]
  rfl

end Cert.ReferenceIdeal.RefValue

end
-- ==== Proof.lean ====
/-
  The gated recurrent cell, kernel against reference, over the extended reals.

  Both programs take a batch of 1,000,000 rows — three input features X and sixty-four state units S per row —
  four 3 x 64 matrices U, four 64 x 64 matrices W and four bias rows b, and return the new state
  (1 - G) * H + Z * S with Z, G, R = tanh (X U + S W + b) for their own weights and H = tanh (X Uh + (S * R) Wh + bh).
  The kernel walks the batch in 200 blocks of 5000 rows and casts its matrix operands to a narrower float format;
  the reference computes on the whole batch. At the extended reals a change of format is the identity, a matrix
  product into a zero accumulator and the host's dot product are the same sum of products, and the two programs
  add and multiply the same terms in the same order, so no algebraic law — and no finiteness of the inputs — is needed:
  the reference's result is `GatedCell.cell` of the arguments (ReferenceCell), the value each grid point stores is
  `GatedCell.cell` of its blocks (KernelPayload), and because a row of the cell reads that row of X and S only,
  the 200 row blocks written back make up `GatedCell.cell` of the whole arguments (KernelArray).
  The kernel's idealization is its own text read at the extended reals, so nothing more is owed for it.
-/
import proofs.«168768_j12584254177428_1_alg».proof.Defs
import proofs.«168768_j12584254177428_1_alg».proof.Proof.Gen.Kernel
import proofs.«168768_j12584254177428_1_alg».proof.Proof.Gen.Kernel.Skeleton
import proofs.«168768_j12584254177428_1_alg».proof.Proof.Gen.Kernel.Launch
import proofs.«168768_j12584254177428_1_alg».proof.Proof.Gen.Kernel.Points
import proofs.«168768_j12584254177428_1_alg».proof.Proof.Gen.Kernel.Frame
import proofs.«168768_j12584254177428_1_alg».proof.Proof.Gen.KernelIdeal
import proofs.«168768_j12584254177428_1_alg».proof.Proof.Gen.KernelIdeal.Skeleton
import proofs.«168768_j12584254177428_1_alg».proof.Proof.Gen.KernelIdeal.Launch
import proofs.«168768_j12584254177428_1_alg».proof.Proof.Gen.KernelIdeal.Points
import proofs.«168768_j12584254177428_1_alg».proof.Proof.Gen.KernelIdeal.Frame
import proofs.«168768_j12584254177428_1_alg».proof.Proof.Gen.ReferenceIdeal
import proofs.«168768_j12584254177428_1_alg».proof.Proof.Gen.Pre_finite_inputs
import proofs.«168768_j12584254177428_1_alg».proof.Proof.Gen.KernelIdeal.Value
import proofs.«168768_j12584254177428_1_alg».proof.Proof.Gen.ReferenceIdeal.Run
import proofs.«168768_j12584254177428_1_alg».proof.Proof.Gen.ReferenceIdeal.Read
import proofs.«168768_j12584254177428_1_alg».proof.Proof.KernelArray
import proofs.«168768_j12584254177428_1_alg».proof.Proof.ReferenceCell
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the fourteen arguments, the kernel's result array and the reference's both end
    at the gated cell of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v29_eq, Cert.ReferenceIdeal.RefValue.result_eq,
    h0, h1, h2, h3, h4, h5, h6, h7, h8, h9, h10, h11, h12, h13]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
